-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x52 : Shape := ⟨2, ![8192, 52]⟩
abbrev S8192x8192 : Shape := ⟨2, ![8192, 8192]⟩
abbrev S8192 : Shape := ⟨1, ![8192]⟩
abbrev S_ : Shape := ⟨0, ![]⟩

class Facts : Prop where
  bcast_S_S8192x52 : S_.BroadcastsInDim S8192x52 (![] : Fin 0 → Fin S8192x52.rank)
  reducesTo_S8192x52_S_d0_1 : S8192x52.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x52 .f32) (main_arg1 : FVec F S8192x8192 .f32) (main_arg2 : FVec F S8192x52 .f32) (main_arg3 : FVec F S8192 .f32) (main_arg4 : FVec F S8192 .f32) : IVec S_ 1 :=
  let main_v0 : FVec F S8192x52 .f32 := Host.absf main_arg0
  let main_cst : FVec F S_ .f32 := constant S_ .f32 0x7F800000#32
  let main_v1 : FVec F S8192x52 .f32 := broadcastInDim S8192x52 ![] bcast_S_S8192x52 main_cst
  let main_v2 : IVec S8192x52 1 := cmpf .olt main_v0 main_v1
  let main_c : IVec S_ 1 := constantI S_ 1 1#1
  let main_v3 : IVec S_ 1 := (fun x v => Host.reduce IntOp.andi x v reducesTo_S8192x52_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x52 .f32 := Host.absf main_arg2
  let main_cst_2 : FVec F S_ .f32 := constant S_ .f32 0x7F800000#32
  let main_v10 : FVec F S8192x52 .f32 := broadcastInDim S8192x52 ![] bcast_S_S8192x52 main_cst_2
  let main_v11 : IVec S8192x52 1 := cmpf .olt main_v9 main_v10
  let main_c_3 : IVec S_ 1 := constantI S_ 1 1#1
  let main_v12 : IVec S_ 1 := (fun x v => Host.reduce IntOp.andi x v reducesTo_S8192x52_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x52 : Shape := ⟨2, ![8192, 52]⟩
abbrev S8192x8192 : Shape := ⟨2, ![8192, 8192]⟩
abbrev S8192 : Shape := ⟨1, ![8192]⟩
abbrev S8192x1 : Shape := ⟨2, ![8192, 1]⟩
abbrev S256x8192 : Shape := ⟨2, ![256, 8192]⟩
abbrev S256x52 : Shape := ⟨2, ![256, 52]⟩
abbrev S256x1 : Shape := ⟨2, ![256, 1]⟩
abbrev S256 : Shape := ⟨1, ![256]⟩

abbrev nBuf : Space → Nat
  | .hbm => 10
  | .vmem => 11
  | .smem => 0
  | _ => 0

abbrev bufTy : (tb : Table) → Fin (tcTables nBuf tb) → BufTy
  | .hbm, ⟨0, _⟩ => ⟨S8192x52, .f32⟩
  | .hbm, ⟨1, _⟩ => ⟨S8192x8192, .f32⟩
  | .hbm, ⟨2, _⟩ => ⟨S8192x52, .f32⟩
  | .hbm, ⟨3, _⟩ => ⟨S8192, .f32⟩
  | .hbm, ⟨4, _⟩ => ⟨S8192, .f32⟩
  | .hbm, ⟨5, _⟩ => ⟨S8192x52, .bf16⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192, .f32⟩
  | .local _ .vmem, ⟨0, _⟩ => ⟨S256x8192, .f32⟩
  | .local _ .vmem, ⟨1, _⟩ => ⟨S256x8192, .f32⟩
  | .local _ .vmem, ⟨2, _⟩ => ⟨S8192x52, .bf16⟩
  | .local _ .vmem, ⟨3, _⟩ => ⟨S256x52, .f32⟩
  | .local _ .vmem, ⟨4, _⟩ => ⟨S256x52, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S8192x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x52 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x52 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S8192_S8192x1 : S8192.ShapeCasts S8192x1
  inb_S256x8192_S256x8192_0_0 : ∀ a, (![0, 0] : Fin 2 → Nat) a + S256x8192.size a ≤ S256x8192.size a
  h_S256x8192 : 0 < S256x8192.numel
  inb_S8192x52_S8192x52_0_0 : ∀ a, (![0, 0] : Fin 2 → Nat) a + S8192x52.size a ≤ S8192x52.size a
  h_S8192x52 : 0 < S8192x52.numel
  shapeCasts_S8192x52_S8192x52 : S8192x52.ShapeCasts S8192x52
  inb_S256x52_S256x52_0_0 : ∀ a, (![0, 0] : Fin 2 → Nat) a + S256x52.size a ≤ S256x52.size a
  h_S256x52 : 0 < S256x52.numel
  reduces_S256x52_S256 : S256x52.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S8192x1_S8192 : S8192x1.ShapeCasts S8192
  dot_S256x8192_S8192x52_S256x52_1_0_0_1_n_n_wf : DotDims.WF S256x8192 S8192x52 S256x52 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x52.size a ≤ S8192x52.size a
  hwx0_1 : ∀ i : grid0.Coords, EltTy.bits .bf16 = 32 ∨ (Rect.block (s := S8192x52) S8192x52.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x52.size a ≤ S8192x52.size a
  hwx0_2 : ∀ i : grid0.Coords, EltTy.bits .f32 = 32 ∨ (Rect.block (s := S8192x52) S256x52.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)

variable [Facts₀]

def dot_S256x8192_S8192x52_S256x52_1_0_0_1_n_n : DotDims S256x8192 S8192x52 S256x52 where
  lhsContracting := [1]
  rhsContracting := [0]
  lhsNonContracting := [0]
  rhsNonContracting := [1]
  lhsBatch := []
  rhsBatch := []
  wf := dot_S256x8192_S8192x52_S256x52_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x52.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x52.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x52 : Shape := ⟨2, ![8192, 52]⟩
abbrev S8192x8192 : Shape := ⟨2, ![8192, 8192]⟩
abbrev S8192 : Shape := ⟨1, ![8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x52, .f32⟩
  | .hbm, ⟨1, _⟩ => ⟨S8192x8192, .f32⟩
  | .hbm, ⟨2, _⟩ => ⟨S8192x52, .f32⟩
  | .hbm, ⟨3, _⟩ => ⟨S8192, .f32⟩
  | .hbm, ⟨4, _⟩ => ⟨S8192, .f32⟩
  | .hbm, ⟨5, _⟩ => ⟨S8192x52, .f32⟩
  | .hbm, ⟨6, _⟩ => ⟨S8192x52, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | _, _ => ⟨S8192x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S8192x52_S8192_d1 : S8192x52.ReducesTo [1] S8192
  h_S_ : 0 < S_.numel
  bcast_S_S8192 : S_.BroadcastsInDim S8192 (![] : Fin 0 → Fin S8192.rank)
  dot_S8192x8192_S8192x52_S8192x52_1_0_0_1_n_n_wf : DotDims.WF S8192x8192 S8192x52 S8192x52 [1] [0] [0] [1] [] []

variable [Facts₀]

def dot_S8192x8192_S8192x52_S8192x52_1_0_0_1_n_n : DotDims S8192x8192 S8192x52 S8192x52 where
  lhsContracting := [1]
  rhsContracting := [0]
  lhsNonContracting := [0]
  rhsNonContracting := [1]
  lhsBatch := []
  rhsBatch := []
  wf := dot_S8192x8192_S8192x52_S8192x52_1_0_0_1_n_n_wf

class Facts : Prop extends Facts₀ where

variable [Facts]
-- ==== Proof.Spec.lean ====
/-
  The function both programs compute, over the extended reals.  For a matrix `W` (8192 × 8192), a matrix `X`
  (8192 × 52), a matrix `K` (8192 × 52) and two vectors `a`, `b` of length 8192, entry `r` of the result is
      logistic (a r · (Σ_t K[r,t] · (Σ_j W[r,j] · X[j,t]) − b r)),
  where `logistic z = 1 / (1 + e^(−z))`.  Both sums are written in exactly this nesting on both sides, so no
  rearrangement law of the extended reals is needed, and the precondition is never opened.
-/
import Idealize.ShloMosaic.PureOps.Ideal
import Idealize.ShloMosaic.PureOps.IdealRules
import Idealize.ShloMosaic.Lib.ValueIdx

noncomputable section

open scoped BigOperators

namespace Cert.RowLogistic

open Idealize.ShloMosaic Idealize.ShloMosaic.ValueIdx

/-- One entry of the result from one row `wr` of `W`, the whole of `X`, one row `kr` of `K` and the two scalars:
    `logistic (a · (Σ_t kr t · (Σ_j wr j · X[j,t]) − b))`. -/
def rowVal (wr : Fin 8192 → EReal) (x : (⟨2, ![8192, 52]⟩ : Shape).Idx → EReal) (kr : Fin 52 → EReal) (a b : EReal) : EReal :=
  Ideal.logistic (a * ((∑ t : Fin 52, kr t * ∑ j : Fin 8192, wr j * x (ix2 j t)) - b))

/-- `rowVal` depends only on the values of its arguments. -/
theorem rowVal_congr {wr wr' : Fin 8192 → EReal} {x x' : (⟨2, ![8192, 52]⟩ : Shape).Idx → EReal} {kr kr' : Fin 52 → EReal}
    {a a' b b' : EReal} (hw : wr = wr') (hx : x = x') (hk : kr = kr') (ha : a = a') (hb : b = b') :
    rowVal wr x kr a b = rowVal wr' x' kr' a' b' := by
  subst hw hx hk ha hb; rfl

/-- The result vector: at `r` the entry built from row `r` of `W`, row `r` of `K`, `a r` and `b r`. -/
def result (x : (⟨2, ![8192, 52]⟩ : Shape).Idx → EReal) (w : (⟨2, ![8192, 8192]⟩ : Shape).Idx → EReal)
    (k : (⟨2, ![8192, 52]⟩ : Shape).Idx → EReal) (a b : (⟨1, ![8192]⟩ : Shape).Idx → EReal) :
    (⟨1, ![8192]⟩ : Shape).Idx → EReal :=
  fun i => rowVal (fun j => w (ix2 (⟨(i 0).val, (i 0).isLt⟩ : Fin 8192) j)) x
    (fun t => k (ix2 (⟨(i 0).val, (i 0).isLt⟩ : Fin 8192) t)) (a i) (b i)

/-- The word `0x3F800000` is the number one. -/
theorem one_f32 : Ideal.ofBits .f32 0x3F800000#32 = 1 := IdealRules.sign_bit.ideal_onePat .f32

end Cert.RowLogistic

end
-- ==== Proof.RefValue.lean ====
/-
  The reference program's last stage, read entry by entry, is `RowLogistic.result` of the five arguments:
  its quotient `1 / (1 + exp (−z))` is the logistic function of `z`, its `dot_general` the inner sum over `j`
  and its reduction (from the initial value 0) the outer sum over `t`.
-/
import proofs.«168014_j7481833030195_1_alg».proof.Proof.Gen.ReferenceIdeal.Run
import proofs.«168014_j7481833030195_1_alg».proof.Proof.Gen.ReferenceIdeal.Read
import proofs.«168014_j7481833030195_1_alg».proof.Proof.Spec
import Idealize.ShloMosaic.PureOps.Ideal.Laws

noncomputable section

open scoped BigOperators

namespace Cert.RowLogistic

open Idealize.ShloMosaic Idealize.ShloMosaic.TcCoe Idealize.ShloMosaic.ValueIdx
open Cert.ReferenceIdeal Cert.ReferenceIdeal.Gen Cert.ReferenceIdeal.Read

/-- Entry `(r, t)` of the 8192 × 52 operand, as the reduction's index map names it. -/
theorem idx_outer (r : Fin 8192) (t : Fin 52) : idx_main_v2 (ix1 r) t = ix2 r t :=
  funext fun a => Fin.ext (by match a with | ⟨0, _⟩ => rfl | ⟨1, _⟩ => rfl)

/-- Entry `(r, j)` of the left factor, as the product's index map names it. -/
theorem idx_left (r : Fin 8192) (t : Fin 52) (j : Fin 8192) : lidx_main_v0 (ix2 r t) j = ix2 r j :=
  funext fun a => Fin.ext (by match a with | ⟨0, _⟩ => rfl | ⟨1, _⟩ => rfl)

/-- Entry `(j, t)` of the right factor, as the product's index map names it. -/
theorem idx_right (r : Fin 8192) (t : Fin 52) (j : Fin 8192) : ridx_main_v0 (ix2 r t) j = ix2 j t :=
  funext fun a => Fin.ext (by match a with | ⟨0, _⟩ => rfl | ⟨1, _⟩ => rfl)

/-- The reference's last stage is `result` of the arguments, entry by entry. -/
theorem reference_eq (x0 : FVec Ideal S8192x52 .f32) (x1 : FVec Ideal S8192x8192 .f32) (x2 : FVec Ideal S8192x52 .f32)
    (x3 x4 : FVec Ideal S8192 .f32) :
    val_main_v10 (F := Ideal) x0 x1 x2 x3 x4 = result x0 x1 x2 x3 x4 := by
  funext i
  obtain ⟨r, rfl⟩ : ∃ r : Fin 8192, i = ix1 r := ⟨i 0, eq_ix1 i⟩
  rw [val_main_v10_apply, val_main_v9_apply, val_main_cst_1_apply, val_main_v8_apply, val_main_v7_apply,
    val_main_cst_0_apply, val_main_v6_apply, val_main_v5_apply, val_main_v4_apply, val_main_v3_apply,
    val_main_v2_apply, val_main_cst_apply]
  simp only [val_main_v1_apply, val_main_v0_apply, idx_outer, idx_left, idx_right, Ideal.ofBits_def, Ideal.hostDivf_def,
    Ideal.addf_def, Ideal.hostUnary_exp_def, Ideal.hostNegf_def, Ideal.negf_def, Ideal.mulf_def, Ideal.subf_def,
    one_f32, Ideal.ofBits_zero_f32, zero_add]
  rfl

end Cert.RowLogistic

end
-- ==== Proof.KernelBlock.lean ====
/-
  What the kernel body stores at one grid point, entry by entry.  The body loads a 256 × 8192 block `wb` of `W`,
  the whole of `X`, a 256 × 52 block `kb` of `K` and 256 × 1 blocks `ab`, `bb` of the two vectors (as columns), and
  stores, at row `p` of its 256 × 1 output block,
      logistic (ab[p] · (Σ_t kb[p,t] · (Σ_j wb[p,j] · X[j,t]) − bb[p])).
  Over the extended reals the two changes of float format are the identity, the matrix product into the zero
  accumulator is the plain sum over `j`, and the lane reduction from 0 is the plain sum over `t`.
-/
import proofs.«168014_j7481833030195_1_alg».proof.Proof.Gen.KernelIdeal.Skeleton
import proofs.«168014_j7481833030195_1_alg».proof.Proof.Spec
import Idealize.ShloMosaic.Lib.Pipeline.Value
import Idealize.ShloMosaic.Lib.ValueIdx
import Idealize.ShloMosaic.PureOps.Ideal.Laws

noncomputable section

open scoped BigOperators

namespace Cert.RowLogistic

open Idealize.ShloMosaic Idealize.ShloMosaic.TcCoe Idealize.ShloMosaic.ValueIdx
open Cert.KernelIdeal Cert.KernelIdeal.Gen

/-- The block function: row `p` of the output block from the loaded blocks. -/
def blockResult (wb : FVec Ideal S256x8192 .f32) (x : FVec Ideal S8192x52 .bf16) (kb : FVec Ideal S256x52 .f32)
    (ab bb : FVec Ideal S256x1 .f32) : S256x1.Idx → EReal :=
  fun y => rowVal (fun j => wb (ix2 (⟨(y 0).val, idx2_lt0 y⟩ : Fin 256) j)) x
    (fun t => kb (ix2 (⟨(y 0).val, idx2_lt0 y⟩ : Fin 256) t)) (ab y) (bb y)

/-! ### The matrix product of the block read at an entry -/

/-- The left factor's index at output entry `i` and contraction index `q`: row `i 0`, column `q`. -/
theorem lhs_blk_0 (i : S256x52.Idx) (q : dot_S256x8192_S8192x52_S256x52_1_0_0_1_n_n.contr.Idx) :
    (dot_S256x8192_S8192x52_S256x52_1_0_0_1_n_n.lhsIdx i q 0).val = (i 0).val := by
  unfold DotDims.lhsIdx
  rw [dif_neg (show ¬(0 : Fin S256x8192.rank) ∈ dot_S256x8192_S8192x52_S256x52_1_0_0_1_n_n.lhsBatch by decide), dif_pos (show (0 : Fin S256x8192.rank) ∈ dot_S256x8192_S8192x52_S256x52_1_0_0_1_n_n.lhsNonContracting by decide)]
  rfl
theorem lhs_blk_1 (i : S256x52.Idx) (q : dot_S256x8192_S8192x52_S256x52_1_0_0_1_n_n.contr.Idx) :
    (dot_S256x8192_S8192x52_S256x52_1_0_0_1_n_n.lhsIdx i q 1).val = (q ⟨0, by decide⟩).val :=
  dot_S256x8192_S8192x52_S256x52_1_0_0_1_n_n.lhsIdx_val_of_single rfl i q
/-- The right factor's index at output entry `i` and contraction index `q`: row `q`, column `i 1`. -/
theorem rhs_blk_0 (i : S256x52.Idx) (q : dot_S256x8192_S8192x52_S256x52_1_0_0_1_n_n.contr.Idx) :
    (dot_S256x8192_S8192x52_S256x52_1_0_0_1_n_n.rhsIdx i q 0).val = (q ⟨0, by decide⟩).val :=
  dot_S256x8192_S8192x52_S256x52_1_0_0_1_n_n.rhsIdx_val_of_single rfl i q
theorem rhs_blk_1 (i : S256x52.Idx) (q : dot_S256x8192_S8192x52_S256x52_1_0_0_1_n_n.contr.Idx) :
    (dot_S256x8192_S8192x52_S256x52_1_0_0_1_n_n.rhsIdx i q 1).val = (i 1).val := by
  unfold DotDims.rhsIdx
  rw [dif_neg (show ¬(1 : Fin S8192x52.rank) ∈ dot_S256x8192_S8192x52_S256x52_1_0_0_1_n_n.rhsBatch by decide), dif_pos (show (1 : Fin S8192x52.rank) ∈ dot_S256x8192_S8192x52_S256x52_1_0_0_1_n_n.rhsNonContracting by decide)]
  rfl

/-- Entry `(p, t)` of the block's product with `X` into the zero accumulator is `Σ_j l[p,j] · r[j,t]`. -/
theorem matmul_blk (l : FVec Ideal S256x8192 .bf16) (r : FVec Ideal S8192x52 .bf16) (p : Fin 256) (t : Fin 52) :
    matmul dot_S256x8192_S8192x52_S256x52_1_0_0_1_n_n none l r (constant (F := Ideal) S256x52 .f32 0x00000000#32) (ix2 p t)
      = ∑ j : Fin 8192, l (ix2 p j) * r (ix2 j t) := by
  simp only [matmul]
  rw [Ideal.matmul_constant_zero_apply, ← Equiv.sum_comp (contrEquiv1 dot_S256x8192_S8192x52_S256x52_1_0_0_1_n_n 8192 rfl rfl).symm]
  refine Finset.sum_congr rfl fun k _ => ?_
  have hk := contrEquiv1_symm_val dot_S256x8192_S8192x52_S256x52_1_0_0_1_n_n 8192 rfl rfl k
  have el : dot_S256x8192_S8192x52_S256x52_1_0_0_1_n_n.lhsIdx (ix2 p t) ((contrEquiv1 dot_S256x8192_S8192x52_S256x52_1_0_0_1_n_n 8192 rfl rfl).symm k) = ix2 p k := funext fun a => Fin.ext (by
    match a with
    | ⟨0, _⟩ => exact lhs_blk_0 _ _
    | ⟨1, _⟩ => exact (lhs_blk_1 _ _).trans hk)
  have er : dot_S256x8192_S8192x52_S256x52_1_0_0_1_n_n.rhsIdx (ix2 p t) ((contrEquiv1 dot_S256x8192_S8192x52_S256x52_1_0_0_1_n_n 8192 rfl rfl).symm k) = ix2 k t := funext fun a => Fin.ext (by
    match a with
    | ⟨0, _⟩ => exact (rhs_blk_0 _ _).trans hk
    | ⟨1, _⟩ => exact rhs_blk_1 _ _)
  rw [el, er]

/-! ### The lane reduction and the column casts read at an entry -/

/-- The sum over the 52 lanes of row `p`, from the initial word 0. -/
theorem lanesum_blk (v : FVec Ideal S256x52 .f32) (hφ : FKind.Formats .f32)
    (hacc : (0x00000000#32 : BitVec 32) = FKind.add.neutral .f32 hφ) (p : Fin 256) :
    multiReduction .add [1] S256 v 0x00000000#32 reduces_S256x52_S256 hφ hacc (ix1 p) = ∑ t : Fin 52, v (ix2 p t) := by
  refine (Ideal.multiReduction_add_single v 0x00000000#32 reduces_S256x52_S256 hφ hacc (ix1 p)).trans ?_
  refine Finset.sum_congr rfl fun t _ => congrArg v ?_
  funext a; apply Fin.ext
  match a with
  | ⟨0, _⟩ => rfl
  | ⟨1, _⟩ => rfl

/-- The cast of a length-256 vector to a 256 × 1 column reads row `p` of the column at `p` of the vector. -/
theorem column_blk {α : Type} (v : S256.Idx → α) (y : S256x1.Idx) :
    shapeCast S256x1 v shapeCasts_S256_S256x1 y = v (ix1 ⟨(y 0).val, idx2_lt0 y⟩) := by
  refine shapeCast_apply v shapeCasts_S256_S256x1 y _ ?_
  rw [Shape.rowMajor_val_one, Shape.rowMajor_val_two]
  have h1 : (y 1).val = 0 := by have := idx2_lt1 y; omega
  show (y 0).val = (y 0).val * 1 + (y 1).val
  omega

/-- The body's stored value is the block function of its loads. -/
theorem payload_eq (v0 : Vec Ideal S256x8192 .f32) (v2 : Vec Ideal S8192x52 .bf16) (v5 : Vec Ideal S256x52 .f32)
    (v9 v11 : Vec Ideal S256x1 .f32) :
    k0_pay1 (F := Ideal) v0 v2 v5 v9 v11 = blockResult v0 v2 v5 v9 v11 := by
  funext y
  unfold k0_pay1 blockResult rowVal
  simp only [shapeCast_self]
  refine congrArg Ideal.logistic ?_
  refine congrArg (fun s : EReal => v9 y * (s - v11 y)) ?_
  refine (column_blk _ y).trans ?_
  refine (lanesum_blk _ _ _ ⟨(y 0).val, idx2_lt0 y⟩).trans ?_
  refine Finset.sum_congr rfl fun t _ => ?_
  refine congrArg (fun s : EReal => v5 (ix2 ⟨(y 0).val, idx2_lt0 y⟩ t) * s) ?_
  exact matmul_blk _ _ ⟨(y 0).val, idx2_lt0 y⟩ t

end Cert.RowLogistic

end
-- ==== Proof.KernelValue.lean ====
/-
  The kernel program's result array, over the extended reals.  The grid has 32 points; point `t` reads rows
  `256·t … 256·t + 255` of `W`, of `K` and of the two column vectors, the whole of `X`, and writes rows
  `256·t … 256·t + 255` of an 8192 × 1 column.  The 32 row blocks tile the column, so after the region the column
  holds, at row `r`, the entry `rowVal` built from row `r` of each operand; the host line after the region reads
  the column back as a vector of length 8192, which is `RowLogistic.result` of the five arguments (the host lines
  before the region only change `X`'s float format, the identity here, and view the two vectors as columns).
-/
import proofs.«168014_j7481833030195_1_alg».proof.Proof.Gen.KernelIdeal.Frame
import proofs.«168014_j7481833030195_1_alg».proof.Proof.KernelBlock
import Idealize.ShloMosaic.Lib.Pipeline.Value
import Idealize.ShloMosaic.Lib.StableHlo.Run
import Idealize.ShloMosaic.Lib.Tactic

set_option maxRecDepth 16384

noncomputable section

open scoped BigOperators

namespace Cert.RowLogistic

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The offset pair `(0, 0)` is the zero offset. -/
theorem hz : (![0, 0] : Fin 2 → Nat) = fun _ => 0 := funext fun a => by fin_cases a <;> rfl

/-- Row `256·t + p` of the arrays: the row of the whole that row `p` of point `t`'s block is. -/
def rowOf (t : Fin cfg0.N) (p : Fin 256) : Fin 8192 :=
  ⟨256 * t.val + p.val, by have := t.isLt; have hN : cfg0.N = 32 := N_0; have := p.isLt; omega⟩

/-- The block index of every window at point `t`: the row-blocked windows are at block `(t, 0)`, the window
    over `X` at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ### The arrays as the region finds them -/

/-- `X` as the region finds it: the argument, its float format changed (the identity on extended reals). -/
theorem entry_x (c : Dev nD) :
    (V m c main_v0 : FVec Ideal S8192x52 .bf16) = (m ((c : Thread nD τ).loc main_arg0) : FVec Ideal S8192x52 .f32) := by
  show StableHlo.after hostOps0 (fun b => m (c, b)) (Proc.devRef .tc main_v0) = _
  after_results
  rfl

/-- The first vector as the region finds it: the argument viewed as a column. -/
theorem entry_a (c : Dev nD) :
    (V m c main_v1 : FVec Ideal S8192x1 .f32)
      = shapeCast S8192x1 (m ((c : Thread nD τ).loc main_arg3) : FVec Ideal S8192 .f32) shapeCasts_S8192_S8192x1 := by
  show StableHlo.after hostOps0 (fun b => m (c, b)) (Proc.devRef .tc main_v1) = _
  after_results
  rfl

/-- The second vector as the region finds it: the argument viewed as a column. -/
theorem entry_b (c : Dev nD) :
    (V m c main_v2 : FVec Ideal S8192x1 .f32)
      = shapeCast S8192x1 (m ((c : Thread nD τ).loc main_arg4) : FVec Ideal S8192 .f32) shapeCasts_S8192_S8192x1 := by
  show StableHlo.after hostOps0 (fun b => m (c, b)) (Proc.devRef .tc main_v2) = _
  after_results
  rfl

/-! ### The input blocks at point `t`, read through the arrays -/

/-- Row `p` of point `t`'s block of `W` is row `256·t + p` of `W`. -/
theorem wblk_apply (c : Dev nD) (t : Fin cfg0.N) (p : Fin 256) (j : Fin 8192) :
    (iblk m c 0 t : Vec Ideal S256x8192 .f32) (ix2 p j)
      = (V m c main_arg1 : FVec Ideal S8192x8192 .f32) (ix2 (rowOf t p) j) := by
  obtain ⟨e0, e1, -⟩ := idx_facts t
  show V m c main_arg1 (((cfg0.win 0).blk t).view.emb (ix2 p j)) = _
  refine congrArg (V m c main_arg1) (funext fun a => Fin.ext ?_)
  match a with
  | ⟨0, _⟩ => show win0_0.index t (0 : Fin 2) * 256 + 1 * p.val = 256 * t.val + p.val; omega
  | ⟨1, _⟩ => show win0_0.index t (1 : Fin 2) * 8192 + 1 * j.val = j.val; omega

/-- Point `t`'s block of `X` is the whole of `X`. -/
theorem xblk_eq (c : Dev nD) (t : Fin cfg0.N) :
    (iblk m c 1 t : Vec Ideal S8192x52 .bf16) = (V m c main_v0 : FVec Ideal S8192x52 .bf16) := by
  obtain ⟨-, -, e0, e1, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 8192 + 1 * (y 0).val = (y 0).val; omega
  | ⟨1, _⟩ => show win0_1.index t (1 : Fin 2) * 52 + 1 * (y 1).val = (y 1).val; omega

/-- Row `p` of point `t`'s block of `K` is row `256·t + p` of `K`. -/
theorem kblk_apply (c : Dev nD) (t : Fin cfg0.N) (p : Fin 256) (s : Fin 52) :
    (iblk m c 2 t : Vec Ideal S256x52 .f32) (ix2 p s)
      = (V m c main_arg2 : FVec Ideal S8192x52 .f32) (ix2 (rowOf t p) s) := by
  obtain ⟨-, -, -, -, e0, e1, -⟩ := idx_facts t
  show V m c main_arg2 (((cfg0.win 2).blk t).view.emb (ix2 p s)) = _
  refine congrArg (V m c main_arg2) (funext fun a => Fin.ext ?_)
  match a with
  | ⟨0, _⟩ => show win0_2.index t (0 : Fin 2) * 256 + 1 * p.val = 256 * t.val + p.val; omega
  | ⟨1, _⟩ => show win0_2.index t (1 : Fin 2) * 52 + 1 * s.val = s.val; omega

/-- Row `p` of point `t`'s block of the first column is row `256·t + p` of the column. -/
theorem ablk_apply (c : Dev nD) (t : Fin cfg0.N) (p : Fin 256) (q : Fin 1) :
    (iblk m c 3 t : Vec Ideal S256x1 .f32) (ix2 p q)
      = (V m c main_v1 : FVec Ideal S8192x1 .f32) (ix2 (rowOf t p) q) := by
  obtain ⟨-, -, -, -, -, -, e0, e1, -⟩ := idx_facts t
  show V m c main_v1 (((cfg0.win 3).blk t).view.emb (ix2 p q)) = _
  refine congrArg (V m c main_v1) (funext fun a => Fin.ext ?_)
  match a with
  | ⟨0, _⟩ => show win0_3.index t (0 : Fin 2) * 256 + 1 * p.val = 256 * t.val + p.val; omega
  | ⟨1, _⟩ => show win0_3.index t (1 : Fin 2) * 1 + 1 * q.val = q.val; omega

/-- Row `p` of point `t`'s block of the second column is row `256·t + p` of the column. -/
theorem bblk_apply (c : Dev nD) (t : Fin cfg0.N) (p : Fin 256) (q : Fin 1) :
    (iblk m c 4 t : Vec Ideal S256x1 .f32) (ix2 p q)
      = (V m c main_v2 : FVec Ideal S8192x1 .f32) (ix2 (rowOf t p) q) := by
  obtain ⟨-, -, -, -, -, -, -, -, e0, e1, -⟩ := idx_facts t
  show V m c main_v2 (((cfg0.win 4).blk t).view.emb (ix2 p q)) = _
  refine congrArg (V m c main_v2) (funext fun a => Fin.ext ?_)
  match a with
  | ⟨0, _⟩ => show win0_4.index t (0 : Fin 2) * 256 + 1 * p.val = 256 * t.val + p.val; omega
  | ⟨1, _⟩ => show win0_4.index t (1 : Fin 2) * 1 + 1 * q.val = q.val; omega

/-! ### What the region leaves in the output column -/

/-- The output column as one function of the arrays the region finds: row `r` from row `r` of each. -/
def columnResult (w : FVec Ideal S8192x8192 .f32) (x : FVec Ideal S8192x52 .bf16) (k : FVec Ideal S8192x52 .f32)
    (a2 b2 : FVec Ideal S8192x1 .f32) : S8192x1.Idx → EReal :=
  fun i => rowVal (fun j => w (ix2 (⟨(i 0).val, idx2_lt0 i⟩ : Fin 8192) j)) x
    (fun s => k (ix2 (⟨(i 0).val, idx2_lt0 i⟩ : Fin 8192) s)) (a2 i) (b2 i)

/-- What point `t` writes back is block `t` of `columnResult`. -/
theorem flushed_eq (c : Dev nD) (t : Fin cfg0.N) :
    (dats m 0 c).flushed 5 t = ((cfg0.win 5).blk t).view.read (Elt Ideal)
      (columnResult (V m c main_arg1) (V m c main_v0) (V m c main_arg2) (V m c main_v1) (V m c main_v2)) := by
  show (cfg0.win 5).cut (grid0.coords t) ((dats m 0 c).after 5 t) = _
  rw [after0_5]
  unfold out0_5
  rw [View.canon_unit_zero hz]
  simp only [View.ld_unit_zero (S := S256x8192) hz, View.ld_unit_zero (S := S8192x52) hz,
    View.ld_unit_zero (S := S256x52) hz, View.ld_unit_zero (S := S256x1) hz]
  rw [payload_eq]
  obtain ⟨-, -, -, -, -, -, -, -, -, -, e0, e1⟩ := idx_facts t
  funext y
  obtain ⟨p, q, rfl⟩ : ∃ (p : Fin 256) (q : Fin 1), y = ix2 p q := ⟨y 0, y 1, eq_ix2 y⟩
  have hemb : ((cfg0.win 5).blk t).view.emb (ix2 p q) = ix2 (rowOf t p) q := funext fun a => Fin.ext (by
    match a with
    | ⟨0, _⟩ => show win0_5.index t (0 : Fin 2) * 256 + 1 * p.val = 256 * t.val + p.val; omega
    | ⟨1, _⟩ => show win0_5.index t (1 : Fin 2) * 1 + 1 * q.val = q.val; omega)
  show blockResult (iblk m c 0 t) (iblk m c 1 t) (iblk m c 2 t) (iblk m c 3 t) (iblk m c 4 t) (ix2 p q)
    = columnResult (V m c main_arg1) (V m c main_v0) (V m c main_arg2) (V m c main_v1) (V m c main_v2)
        (((cfg0.win 5).blk t).view.emb (ix2 p q))
  refine Eq.trans ?_ (congrArg (columnResult (V m c main_arg1) (V m c main_v0) (V m c main_arg2) (V m c main_v1) (V m c main_v2)) hemb.symm)
  unfold blockResult columnResult
  exact rowVal_congr (funext fun j => wblk_apply m c t p j) (xblk_eq m c t) (funext fun s => kblk_apply m c t p s)
    (ablk_apply m c t p q) (bblk_apply m c t p q)

/-! ### The blocks tile the column -/

/-- An index of the column is in point `t`'s block iff each coordinate is in the block's range on its axis. -/
theorem mem_blk (t : Fin cfg0.N) (i : S8192x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v3).slice (win0_5.rect t)).set ↔ _
  rw [View.set_slice_whole, Rect.mem_set_unit]
  exact Iff.rfl

/-- After the region the output column is `columnResult` of the arrays the region found: row `r` is in the block of
    point `r / 256`. -/
theorem final (c : Dev nD) : (dats m 0 c).arrAt 5 cfg0.N
    = columnResult (V m c main_arg1) (V m c main_v0) (V m c main_arg2) (V m c main_v1) (V m c main_v2) :=
  (dats m 0 c).arrAt_eq_of_cover 5 _ (fun t _ => flushed_eq m c t) fun i => by
    have hi0 : (i 0).val < 8192 := idx2_lt0 i
    have hi1 : (i 1).val < 1 := idx2_lt1 i
    have hN : cfg0.N = 32 := N_0
    have hlt : (i 0).val / 256 < cfg0.N := by omega
    obtain ⟨-, -, -, -, -, -, -, -, -, -, e0, e1⟩ := idx_facts ⟨(i 0).val / 256, hlt⟩
    have e0' : win0_5.index ⟨(i 0).val / 256, hlt⟩ (0 : Fin 2) = (i 0).val / 256 := e0
    refine ⟨⟨(i 0).val / 256, hlt⟩, flush0_5 _, ?_⟩
    rw [mem_blk]
    intro a
    match a with
    | ⟨0, _⟩ =>
      show win0_5.index ⟨(i 0).val / 256, hlt⟩ (0 : Fin 2) * 256 ≤ (i 0).val
        ∧ (i 0).val < win0_5.index ⟨(i 0).val / 256, hlt⟩ (0 : Fin 2) * 256 + 256
      omega
    | ⟨1, _⟩ =>
      show win0_5.index ⟨(i 0).val / 256, hlt⟩ (1 : Fin 2) * 1 ≤ (i 1).val
        ∧ (i 1).val < win0_5.index ⟨(i 0).val / 256, hlt⟩ (1 : Fin 2) * 1 + 1
      omega

/-! ### The host line after the region -/

/-- The column read back as a vector is `result` of the five arguments. -/
theorem tail_eq (c : Dev nD) : Pipeline.afterTail₀ cfgs (dats m) 0 (V0 m) [hostOps1] c main_v4
    = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v3)
      = columnResult (V m c main_arg1) (V m c main_v0) (V m c main_arg2) (V m c main_v1) (V m c main_v2) :=
    (Pipeline.withArrays_arr spec0 launch0.win.arr_inj c _ _ 5).trans (final m c)
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N)
    (Proc.devRef .tc main_v3)) shapeCasts_S8192x1_S8192 (ix1 r) = _
  rw [harr]
  have hrow : ∀ (v : FVec Ideal S8192 .f32),
      shapeCast S8192x1 v shapeCasts_S8192_S8192x1 (ix2 r (0 : Fin 1)) = v (ix1 r) := fun v =>
    shapeCast_apply v shapeCasts_S8192_S8192x1 (ix2 r (0 : Fin 1)) (ix1 r) (by
      rw [Shape.rowMajor_val_two, Shape.rowMajor_val_one]; show r.val = r.val * 1 + 0; omega)
  refine (shapeCast_apply _ shapeCasts_S8192x1_S8192 (ix1 r) (ix2 r (0 : Fin 1)) (by
    rw [Shape.rowMajor_val_two, Shape.rowMajor_val_one]; show r.val * 1 + 0 = r.val; omega)).trans ?_
  unfold columnResult result
  refine rowVal_congr ?_ (entry_x m c) ?_ ?_ ?_
  · funext j; exact congrFun (V_main_arg1 m c) (ix2 r j)
  · funext s; exact congrFun (V_main_arg2 m c) (ix2 r s)
  · rw [entry_a]; exact hrow _
  · rw [entry_b]; exact hrow _

/-! ### The run, read -/

/-- Every weakly fair execution of the kernel program ends with the result buffer at `result` of the five
    arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.RowLogistic

end
-- ==== Proof.lean ====
/-
  The claim: the kernel program and the reference compute, entry by entry over the extended reals,
      out[r] = logistic (a[r] · (Σ_t K[r,t] · (Σ_j W[r,j] · X[j,t]) − b[r])),   logistic z = 1 / (1 + e^(−z)).
  The kernel forms the product `W · X` one block of 256 rows at a time (its changes of float format are the
  identity here), weights it with the same rows of `K`, sums over the 52 columns and applies the logistic function;
  the reference forms the whole product, the same weighted row sums, and the quotient `1 / (1 + exp (−z))`, which is
  the logistic function.  The two nested sums are written in the same nesting on both sides, so the two results are
  one function of the arguments (`RowLogistic.result`), with no use of the precondition.
  The three frames: the two kernel programs' are their generated frame certificates; the reference's is its run
  with the result dropped.  The idealization rewrote nothing, so `preserves` is trivial.
-/
import proofs.«168014_j7481833030195_1_alg».proof.Defs
import proofs.«168014_j7481833030195_1_alg».proof.Proof.Gen.Kernel
import proofs.«168014_j7481833030195_1_alg».proof.Proof.Gen.Kernel.Skeleton
import proofs.«168014_j7481833030195_1_alg».proof.Proof.Gen.Kernel.Launch
import proofs.«168014_j7481833030195_1_alg».proof.Proof.Gen.Kernel.Points
import proofs.«168014_j7481833030195_1_alg».proof.Proof.Gen.Kernel.Frame
import proofs.«168014_j7481833030195_1_alg».proof.Proof.Gen.KernelIdeal
import proofs.«168014_j7481833030195_1_alg».proof.Proof.Gen.KernelIdeal.Skeleton
import proofs.«168014_j7481833030195_1_alg».proof.Proof.Gen.KernelIdeal.Launch
import proofs.«168014_j7481833030195_1_alg».proof.Proof.Gen.KernelIdeal.Points
import proofs.«168014_j7481833030195_1_alg».proof.Proof.Gen.KernelIdeal.Frame
import proofs.«168014_j7481833030195_1_alg».proof.Proof.Gen.ReferenceIdeal
import proofs.«168014_j7481833030195_1_alg».proof.Proof.Gen.ReferenceIdeal.Run
import proofs.«168014_j7481833030195_1_alg».proof.Proof.Gen.ReferenceIdeal.Read
import proofs.«168014_j7481833030195_1_alg».proof.Proof.Gen.Pre_finite_inputs
import proofs.«168014_j7481833030195_1_alg».proof.Proof.RefValue
import proofs.«168014_j7481833030195_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `RowLogistic.result` of the (agreeing) arguments. -/
theorem algebraic : Cert.algebraic_KernelIdeal_ReferenceIdeal := by
  intro m ρ m' ρ' _ hagree
  refine ⟨_, Cert.RowLogistic.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RowLogistic.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
